-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S64x32 : Shape := ⟨2, ![64, 32]⟩
abbrev S32 : Shape := ⟨1, ![32]⟩
abbrev S1600000 : Shape := ⟨1, ![1600000]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn {F : FTy → Type} [FloatOps F] (main_arg0 : FVec F S100000x32 .f32) (main_arg1 : FVec F S64x32 .f32) (main_arg2 : FVec F S32 .f32) (main_arg3 : IVec S1600000 32) (main_arg4 : IVec S1600000 32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S64x32 .f32 := Host.absf main_arg1
  let main_cst_0 : FVec F S_ .f32 := constant S_ .f32 0x7F800000#32
  let main_v5 : FVec F S64x32 .f32 := broadcastInDim S64x32 ![] bcast_S_S64x32 main_cst_0
  let main_v6 : IVec S64x32 1 := cmpf .olt main_v4 main_v5
  let main_c_1 : IVec S_ 1 := constantI S_ 1 1#1
  let main_v7 : IVec S_ 1 := (fun x v => Host.reduce IntOp.andi x v reducesTo_S64x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  main_v13
-- ==== Kernel.lean ====
abbrev S100000x32 : Shape := ⟨2, ![100000, 32]⟩
abbrev S64x32 : Shape := ⟨2, ![64, 32]⟩
abbrev S32 : Shape := ⟨1, ![32]⟩
abbrev S1600000 : Shape := ⟨1, ![1600000]⟩
abbrev S_ : Shape := ⟨0, ![]⟩
abbrev S1600000x1 : Shape := ⟨2, ![1600000, 1]⟩
abbrev S1600000x32 : Shape := ⟨2, ![1600000, 32]⟩
abbrev S100000 : Shape := ⟨1, ![100000]⟩
abbrev S100000x1 : Shape := ⟨2, ![100000, 1]⟩
abbrev S32x32 : Shape := ⟨2, ![32, 32]⟩
abbrev S1x32 : Shape := ⟨2, ![1, 32]⟩
abbrev S10000x32 : Shape := ⟨2, ![10000, 32]⟩
abbrev S10000x1 : Shape := ⟨2, ![10000, 1]⟩

abbrev nBuf : Space → Nat
  | .hbm => 29
  | .vmem => 11
  | .smem => 0
  | _ => 0

abbrev bufTy : (tb : Table) → Fin (tcTables nBuf tb) → BufTy
  | .hbm, ⟨0, _⟩ => ⟨S100000x32, .f32⟩
  | .hbm, ⟨1, _⟩ => ⟨S64x32, .f32⟩
  | .hbm, ⟨2, _⟩ => ⟨S32, .f32⟩
  | .hbm, ⟨3, _⟩ => ⟨S1600000, .i32⟩
  | .hbm, ⟨4, _⟩ => ⟨S1600000, .i32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x32, .f32⟩
  | .hbm, ⟨14, _⟩ => ⟨S_, .f32⟩
  | .hbm, ⟨15, _⟩ => ⟨S100000x32, .f32⟩
  | .hbm, ⟨16, _⟩ => ⟨S1600000x1, .i32⟩
  | .hbm, ⟨17, _⟩ => ⟨S100000x32, .f32⟩
  | .hbm, ⟨18, _⟩ => ⟨S_, .f32⟩
  | .hbm, ⟨19, _⟩ => ⟨S1600000, .f32⟩
  | .hbm, ⟨20, _⟩ => ⟨S_, .f32⟩
  | .hbm, ⟨21, _⟩ => ⟨S100000, .f32⟩
  | .hbm, ⟨22, _⟩ => ⟨S1600000x1, .i32⟩
  | .hbm, ⟨23, _⟩ => ⟨S100000, .f32⟩
  | .hbm, ⟨24, _⟩ => ⟨S100000x1, .f32⟩
  | .hbm, ⟨25, _⟩ => ⟨S32x32, .f32⟩
  | .hbm, ⟨26, _⟩ => ⟨S32x32, .f32⟩
  | .hbm, ⟨27, _⟩ => ⟨S1x32, .f32⟩
  | .hbm, ⟨28, _⟩ => ⟨S100000x32, .f32⟩
  | .local _ .vmem, ⟨0, _⟩ => ⟨S10000x32, .f32⟩
  | .local _ .vmem, ⟨1, _⟩ => ⟨S10000x32, .f32⟩
  | .local _ .vmem, ⟨2, _⟩ => ⟨S10000x32, .f32⟩
  | .local _ .vmem, ⟨3, _⟩ => ⟨S10000x32, .f32⟩
  | .local _ .vmem, ⟨4, _⟩ => ⟨S10000x1, .f32⟩
  | .local _ .vmem, ⟨5, _⟩ => ⟨S10000x1, .f32⟩
  | .local _ .vmem, ⟨6, _⟩ => ⟨S32x32, .f32⟩
  | .local _ .vmem, ⟨7, _⟩ => ⟨S32x32, .f32⟩
  | .local _ .vmem, ⟨8, _⟩ => ⟨S1x32, .f32⟩
  | .local _ .vmem, ⟨9, _⟩ => ⟨S10000x32, .f32⟩
  | .local _ .vmem, ⟨10, _⟩ => ⟨S10000x32, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x32 : S_.BroadcastsInDim S100000x32 (![] : Fin 0 → Fin S100000x32.rank)
  bcast_S_S100000 : S_.BroadcastsInDim S100000 (![] : Fin 0 → Fin S100000.rank)
  shapeCasts_S100000_S100000x1 : S100000.ShapeCasts S100000x1
  slices_S64x32_S32x32_0_0 : S64x32.Slices ![0, 0] S32x32
  slices_S64x32_S32x32_32_0 : S64x32.Slices ![32, 0] S32x32
  shapeCasts_S32_S1x32 : S32.ShapeCasts S1x32
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  broadcasts_S10000x1_S10000x32 : S10000x1.Broadcasts S10000x32
  bitsLt_bf16_f32 : FTy.bits .bf16 < FTy.bits .f32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  scatter_S100000_S1600000x1_S1600000_n_0_0_1_wf : ScatterDims.WF S100000 S1600000x1 S1600000 [] [0] [0] 1
  dot_S10000x32_S32x32_S10000x32_1_0_0_1_n_n_wf : DotDims.WF S10000x32 S32x32 S10000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S100000x32.size a
  hwx0_0 : ∀ i : grid0.Coords, EltTy.bits .f32 = 32 ∨ (Rect.block (s := S100000x32) S10000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x32.size a ≤ S100000x32.size a
  hwx0_1 : ∀ i : grid0.Coords, EltTy.bits .f32 = 32 ∨ (Rect.block (s := S100000x32) S10000x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S32x32.size a
  hwx0_3 : ∀ i : grid0.Coords, EltTy.bits .f32 = 32 ∨ (Rect.block (s := S32x32) S32x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x32.size a ≤ S32x32.size a
  hwx0_4 : ∀ i : grid0.Coords, EltTy.bits .f32 = 32 ∨ (Rect.block (s := S32x32) S32x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x32.size a ≤ S100000x32.size a
  hwx0_6 : ∀ i : grid0.Coords, EltTy.bits .f32 = 32 ∨ (Rect.block (s := S100000x32) S10000x32.size (cc0_transform_6 i) (hinb0_6 i)).WholeWords (EltTy.packing .f32)

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf

abbrev win0_0 : Pipeline.Window sig grid0 :=
  Pipeline.Window.ofSpec (Memref.whole main_arg0) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S10000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S32x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S10000x32.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x32 : Shape := ⟨2, ![100000, 32]⟩
abbrev S64x32 : Shape := ⟨2, ![64, 32]⟩
abbrev S32 : Shape := ⟨1, ![32]⟩
abbrev S1600000 : Shape := ⟨1, ![1600000]⟩
abbrev S_ : Shape := ⟨0, ![]⟩
abbrev S1600000x1 : Shape := ⟨2, ![1600000, 1]⟩
abbrev S1600000x32 : Shape := ⟨2, ![1600000, 32]⟩
abbrev S100000 : Shape := ⟨1, ![100000]⟩
abbrev S100000x1 : Shape := ⟨2, ![100000, 1]⟩
abbrev S100000x64 : Shape := ⟨2, ![100000, 64]⟩
abbrev S1x32 : Shape := ⟨2, ![1, 32]⟩

abbrev nBuf : Space → Nat
  | .hbm => 38
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S64x32, .f32⟩
  | .hbm, ⟨2, _⟩ => ⟨S32, .f32⟩
  | .hbm, ⟨3, _⟩ => ⟨S1600000, .i32⟩
  | .hbm, ⟨4, _⟩ => ⟨S1600000, .i32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x32, .f32⟩
  | .hbm, ⟨14, _⟩ => ⟨S_, .f32⟩
  | .hbm, ⟨15, _⟩ => ⟨S100000x32, .f32⟩
  | .hbm, ⟨16, _⟩ => ⟨S1600000x1, .i32⟩
  | .hbm, ⟨17, _⟩ => ⟨S100000x32, .f32⟩
  | .hbm, ⟨18, _⟩ => ⟨S_, .f32⟩
  | .hbm, ⟨19, _⟩ => ⟨S1600000, .f32⟩
  | .hbm, ⟨20, _⟩ => ⟨S_, .f32⟩
  | .hbm, ⟨21, _⟩ => ⟨S100000, .f32⟩
  | .hbm, ⟨22, _⟩ => ⟨S1600000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x32, .f32⟩
  | .hbm, ⟨29, _⟩ => ⟨S100000x32, .f32⟩
  | .hbm, ⟨30, _⟩ => ⟨S100000x64, .f32⟩
  | .hbm, ⟨31, _⟩ => ⟨S100000x32, .f32⟩
  | .hbm, ⟨32, _⟩ => ⟨S1x32, .f32⟩
  | .hbm, ⟨33, _⟩ => ⟨S100000x32, .f32⟩
  | .hbm, ⟨34, _⟩ => ⟨S100000x32, .f32⟩
  | .hbm, ⟨35, _⟩ => ⟨S_, .f32⟩
  | .hbm, ⟨36, _⟩ => ⟨S100000x32, .f32⟩
  | .hbm, ⟨37, _⟩ => ⟨S100000x32, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call0_cst : Ref sig .tc := ⟨.hbm, 35, rfl⟩
abbrev main_call0_v0 : Ref sig .tc := ⟨.hbm, 36, rfl⟩
abbrev main_v24 : Ref sig .tc := ⟨.hbm, 37, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x32 : S_.BroadcastsInDim S100000x32 (![] : Fin 0 → Fin S100000x32.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  concatenates_S100000x32_S100000x32_S100000x64_d1 : Shape.Concatenates [S100000x32, S100000x32] S100000x64 1
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  scatter_S100000_S1600000x1_S1600000_n_0_0_1_wf : ScatterDims.WF S100000 S1600000x1 S1600000 [] [0] [0] 1
  dot_S100000x64_S64x32_S100000x32_1_0_0_1_n_n_wf : DotDims.WF S100000x64 S64x32 S100000x32 [1] [0] [0] [1] [] []

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf

class Facts : Prop extends Facts₀ where

variable [Facts]
-- ==== Proof.Spec.lean ====
/-
  The mathematics of one graph-convolution layer, index by index over the extended reals.

  Given node features `x : [100000, 32]`, the per-node sums `S : [100000, 32]` of the features gathered along the
  edges, the per-node edge counts `C : [100000]`, the weights `W : [64, 32]` and the bias `b : [32]`, the layer's
  output at node `r` and output feature `j` is

      max ( Σ_{k<32} x[r,k]·W[k,j]  +  Σ_{k<32} (S[r,k] / max(C[r], 1))·W[32+k,j]  +  b[j] ,  0 ).

  The first sum is the node's own features against the upper half of `W`, the second its neighbourhood mean
  against the lower half. A program that first joins `x` and the mean side by side into a `[100000, 64]` array and
  contracts that against the whole of `W` computes the same number: a sum over 64 terms is the sum of its first 32
  and its last 32 terms (`sum_halves`), which holds in any additive commutative monoid, so also on the extended reals
  with their infinities, and no finiteness of the inputs is needed.
-/
import Idealize.ShloMosaic.PureOps.Ideal
import Idealize.ShloMosaic.PureOps.Ideal.Laws
import Idealize.ShloMosaic.Lib.ValueIdx

noncomputable section

namespace Cert.GraphConv

open Idealize.ShloMosaic Idealize.ShloMosaic.ValueIdx

/-- Nodes × features. -/
abbrev NodeFeat : Shape := ⟨2, ![100000, 32]⟩
/-- The weight matrix: 64 input features (own, then neighbourhood) × 32 output features. -/
abbrev Weight : Shape := ⟨2, ![64, 32]⟩
/-- One number per output feature. -/
abbrev Bias : Shape := ⟨1, ![32]⟩
/-- One number per node. -/
abbrev PerNode : Shape := ⟨1, ![100000]⟩

/-- Row `k` of the upper half of the weight matrix. -/
abbrev upper (k : Fin 32) : Fin 64 := ⟨k.val, by have := k.isLt; omega⟩
/-- Row `k` of the lower half of the weight matrix: row `32 + k` of the whole. -/
abbrev lower (k : Fin 32) : Fin 64 := ⟨32 + k.val, by have := k.isLt; omega⟩

/-- The float `1.0` and the float `0.0`, as the extended reals their words denote. -/
abbrev one : EReal := Ideal.ofBits .f32 0x3F800000#32
abbrev zero : EReal := Ideal.ofBits .f32 0x00000000#32

/-- The neighbourhood mean of feature `k` at node `r`: the gathered sum over the edge count, the count replaced by
    one where a node has no incoming edge. -/
def neighMean (S : FVec Ideal NodeFeat .f32) (C : FVec Ideal PerNode .f32) (r : Fin 100000) (k : Fin 32) : EReal :=
  Ideal.div (S (ix2 r k)) (max (C (ix1 r)) one)

/-- The layer's output, index by index. -/
def layer (x S : FVec Ideal NodeFeat .f32) (C : FVec Ideal PerNode .f32) (W : FVec Ideal Weight .f32)
    (b : FVec Ideal Bias .f32) : FVec Ideal NodeFeat .f32 := fun i =>
  max ((∑ k : Fin 32, x (ix2 (i 0) k) * W (ix2 (upper k) (i 1))
        + ∑ k : Fin 32, neighMean S C (i 0) k * W (ix2 (lower k) (i 1)))
       + b (ix1 (i 1))) zero

/-- A sum over 64 terms is the sum of the first 32 plus the sum of the last 32. -/
theorem sum_halves {M : Type*} [AddCommMonoid M] (f : Fin 64 → M) :
    ∑ k : Fin 64, f k = ∑ k : Fin 32, f (upper k) + ∑ k : Fin 32, f (lower k) :=
  Fin.sum_univ_add (a := 32) (b := 32) f

end Cert.GraphConv

end
-- ==== Proof.RefLayer.lean ====
/-
  The reference program computes the layer.

  Its last stage is `max (concat(x, mean) · W + b, 0)`, where `mean = S / max(C, 1)` with `S` the scatter-added
  gathered features and `C` the scatter-added ones, the count broadcast along the feature axis. Read at an index
  `(r, j)`: the contraction runs over the 64 columns of the joined array; a column below 32 reads `x[r, k]`, a
  column `32 + k` reads `mean[r, k]`; splitting the sum into its two halves gives the layer's two sums.
-/
import proofs.«167307_j20444044329486_1_alg».proof.Proof.Gen.ReferenceIdeal.Read
import proofs.«167307_j20444044329486_1_alg».proof.Proof.Spec

noncomputable section

namespace Cert.GraphConv.Ref

open Cert.ReferenceIdeal Cert.ReferenceIdeal.Gen Cert.ReferenceIdeal.Read Idealize.ShloMosaic Idealize.ShloMosaic.ValueIdx Cert.GraphConv

variable (x0 : (⟨S100000x32, .f32⟩ : BufTy).Contents (Elt Ideal)) (x1 : (⟨S64x32, .f32⟩ : BufTy).Contents (Elt Ideal))
  (x2 : (⟨S32, .f32⟩ : BufTy).Contents (Elt Ideal)) (x3 x4 : (⟨S1600000, .i32⟩ : BufTy).Contents (Elt Ideal))

/-- A column of the joined array in its left half is the node's own feature. -/
theorem joined_left (r : Fin 100000) (j k : Fin 32) :
    val_main_v19 (F := Ideal) x0 x3 x4 (lidx_main_v20 (ix2 r j) (upper k)) = x0 (ix2 r k) := by
  unfold val_main_v19
  exact concatenate_pair_apply_left (t := S100000x64) (s₁ := S100000x32) (s₂ := S100000x32) (1 : Fin 2) x0 _ concatenates_S100000x32_S100000x32_S100000x64_d1 _ rfl (ix2 r k)
    (fun b => match b with | ⟨0, _⟩ => rfl | ⟨1, _⟩ => rfl)

/-- The count stage, floored at one and broadcast along the features, read at `(r, k)`. -/
theorem count_at (r : Fin 100000) (k : Fin 32) :
    val_main_v17 (F := Ideal) x4 (ix2 r k) = max (val_main_v13 (F := Ideal) x4 (ix1 r)) one := by
  rw [val_main_v17_apply, val_main_v16_apply, val_main_v15_apply, val_main_v14_apply, val_main_cst_3_apply]
  have e : idx_main_v16 (idx_main_v17 (ix2 r k)) = ix1 r := funext fun a => match a with | ⟨0, _⟩ => rfl
  rw [e]
  rfl

/-- A column of the joined array in its right half is the neighbourhood mean. -/
theorem joined_right (r : Fin 100000) (j k : Fin 32) :
    val_main_v19 (F := Ideal) x0 x3 x4 (lidx_main_v20 (ix2 r j) (lower k))
      = neighMean (val_main_v9 (F := Ideal) x0 x3 x4) (val_main_v13 (F := Ideal) x4) r k := by
  unfold val_main_v19
  refine (concatenate_pair_apply_right (t := S100000x64) (s₁ := S100000x32) (s₂ := S100000x32) (1 : Fin 2) x0 _ concatenates_S100000x32_S100000x32_S100000x64_d1 _ rfl rfl (ix2 r k)
    (fun b => match b with | ⟨0, _⟩ => fun _ => rfl | ⟨1, _⟩ => fun h => absurd rfl h)
    (by show k.val + 32 = 32 + k.val; omega)).trans ?_
  rw [val_main_v18_apply, count_at]
  rfl

/-- The reference's result is the layer of its arguments, of the gathered sums and of the edge counts. -/
theorem result_eq :
    val_main_v24 (F := Ideal) x0 x1 x2 x3 x4
      = layer x0 (val_main_v9 (F := Ideal) x0 x3 x4) (val_main_v13 (F := Ideal) x4) x1 x2 := by
  funext i
  obtain ⟨r, j, rfl⟩ : ∃ (r : Fin 100000) (j : Fin 32), i = ix2 r j := ⟨i 0, i 1, eq_ix2 i⟩
  rw [val_main_v24_apply, val_main_v23_apply, val_main_v20_apply, val_main_v22_apply, val_main_v21_apply,
    val_main_call0_v0_apply, val_main_call0_cst_apply, sum_halves]
  have eu : ∀ k : Fin 32, ridx_main_v20 (ix2 r j) (upper k) = ix2 (upper k) j := fun k =>
    funext fun a => match a with | ⟨0, _⟩ => rfl | ⟨1, _⟩ => rfl
  have el : ∀ k : Fin 32, ridx_main_v20 (ix2 r j) (lower k) = ix2 (lower k) j := fun k =>
    funext fun a => match a with | ⟨0, _⟩ => rfl | ⟨1, _⟩ => rfl
  have eb : idx_main_v21 (idx_main_v22 (ix2 r j)) = ix1 j := funext fun a => match a with | ⟨0, _⟩ => rfl
  simp only [joined_left, joined_right, eu, el, eb]
  rfl

end Cert.GraphConv.Ref

end
-- ==== Proof.HostArrays.lean ====
/-
  The arrays the program prepares before the kernel runs, as functions of the arguments.

  It gathers each edge's source features and scatter-adds them at the edge's destination (`gatheredSums`), scatter-adds
  a one per edge at its destination (`edgeCounts`) and views the result as a column, cuts the weight matrix into its
  upper and its lower 32 rows, and views the bias as a row. Each is read off the program's host operations in order.
-/
import proofs.«167307_j20444044329486_1_alg».proof.Proof.Gen.KernelIdeal.Frame
import proofs.«167307_j20444044329486_1_alg».proof.Proof.Spec
import Idealize.ShloMosaic.PureOps.Ideal
import Idealize.ShloMosaic.Lib.ValueIdx
import Idealize.ShloMosaic.Lib.StableHlo.Run
import Idealize.ShloMosaic.Lib.StableHlo.Run

noncomputable section

namespace Cert.GraphConv.Kernel

open Cert.KernelIdeal Cert.KernelIdeal.Gen Idealize.ShloMosaic Idealize.ShloMosaic.TcCoe Idealize.SL.Sem
open Idealize.ShloMosaic.StableHlo Idealize.ShloMosaic.ValueIdx Cert.GraphConv
open Idealize.ShloMosaic.Pipeline (Dat)

/-! ## The arrays the program computes before the kernel -/

/-- Per node, the sum over its incoming edges of the source node's features (a negative source index counted from the
    end). -/
def gatheredSums (x : (⟨S100000x32, .f32⟩ : BufTy).Contents (Elt Ideal)) (src dst : (⟨S1600000, .i32⟩ : BufTy).Contents (Elt Ideal)) :
    (⟨S100000x32, .f32⟩ : BufTy).Contents (Elt Ideal) :=
  Host.scatterAdd (F := Ideal) scatter_S100000x32_S1600000x1_S1600000x32_1_0_0_1
    (broadcastInDim S100000x32 ![] bcast_S_S100000x32 (constant (F := Ideal) S_ .f32 0x00000000#32))
    (broadcastInDim S1600000x1 ![0] bcast_S1600000_S1600000x1_0 dst)
    (Host.gather gather_S100000x32_S1600000x1_S1600000x32_1_0_n_n_0_1_132 x
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- Per node, the number of its incoming edges. -/
def edgeCounts (dst : (⟨S1600000, .i32⟩ : BufTy).Contents (Elt Ideal)) : (⟨S100000, .f32⟩ : BufTy).Contents (Elt Ideal) :=
  Host.scatterAdd (F := Ideal) scatter_S100000_S1600000x1_S1600000_n_0_0_1
    (broadcastInDim S100000 ![] bcast_S_S100000 (constant (F := Ideal) S_ .f32 0x00000000#32))
    (broadcastInDim S1600000x1 ![0] bcast_S1600000_S1600000x1_0 dst)
    (broadcastInDim S1600000 ![] bcast_S_S1600000 (constant (F := Ideal) S_ .f32 0x3F800000#32))

variable (m : (ℓ : Loc nD τ sig) → Buf (Elt Ideal) ℓ) (ρ : Dev nD → PrngReg)

theorem sums_arr (c : Dev nD) :
    (V m c main_v9 : S100000x32.Idx → EReal) = gatheredSums (m ((c : Thread nD τ).loc main_arg0)) (m ((c : Thread nD τ).loc main_arg3)) (m ((c : Thread nD τ).loc main_arg4)) := by
  dsimp only [Gen.V, Gen.hostOps0]; after_results; rfl

theorem counts_arr (c : Dev nD) :
    (V m c main_v14 : S100000x1.Idx → EReal) = shapeCast S100000x1 (edgeCounts (m ((c : Thread nD τ).loc main_arg4))) shapeCasts_S100000_S100000x1 := by
  dsimp only [Gen.V, Gen.hostOps0]; after_results; rfl

theorem upper_arr (c : Dev nD) :
    (V m c main_v15 : S32x32.Idx → EReal) = extractStridedSlice S32x32 ![0, 0] (m ((c : Thread nD τ).loc main_arg1)) slices_S64x32_S32x32_0_0 := by
  dsimp only [Gen.V, Gen.hostOps0]; after_results

theorem lower_arr (c : Dev nD) :
    (V m c main_v16 : S32x32.Idx → EReal) = extractStridedSlice S32x32 ![32, 0] (m ((c : Thread nD τ).loc main_arg1)) slices_S64x32_S32x32_32_0 := by
  dsimp only [Gen.V, Gen.hostOps0]; after_results

theorem bias_arr (c : Dev nD) :
    (V m c main_v17 : S1x32.Idx → EReal) = shapeCast S1x32 (m ((c : Thread nD τ).loc main_arg2)) shapeCasts_S32_S1x32 := by
  dsimp only [Gen.V, Gen.hostOps0]; after_results; rfl

end Cert.GraphConv.Kernel

end
-- ==== Proof.Blocks.lean ====
/-
  Where a block's index lies in its array.

  The kernel walks the 100000 nodes in ten blocks of 10000 rows. At point `t` the features, the sums, the counts and the
  output are at block row `t`, so row `p` of the block is node `10000·t + p`; the two weight halves and the bias are
  whole at every point. Every window is at block column 0.
-/
import proofs.«167307_j20444044329486_1_alg».proof.Proof.Gen.KernelIdeal.Frame
import proofs.«167307_j20444044329486_1_alg».proof.Proof.Spec
import Idealize.ShloMosaic.PureOps.Ideal
import Idealize.ShloMosaic.Lib.ValueIdx
import Idealize.ShloMosaic.Lib.StableHlo.Run
import Idealize.ShloMosaic.Lib.ValueIdx

noncomputable section

namespace Cert.GraphConv.Kernel

open Cert.KernelIdeal Cert.KernelIdeal.Gen Idealize.ShloMosaic Idealize.ShloMosaic.TcCoe Idealize.SL.Sem
open Idealize.ShloMosaic.StableHlo Idealize.ShloMosaic.ValueIdx Cert.GraphConv
open Idealize.ShloMosaic.Pipeline (Dat)

/-! ## Where a block's index lies in its array -/

/-- The printed index maps over the ten points: the node-blocked windows sit at block row `t`, the weight halves and
    the bias at block 0, every window at block column 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `p` of block `t` is node `10000·t + p`. -/
def node (t : Fin cfg0.N) (p : Fin 10000) : Fin 100000 :=
  ⟨t.val * 10000 + p.val, by have := Nat.lt_of_lt_of_eq t.isLt N_0; have := p.isLt; omega⟩

theorem emb_feat (t : Fin cfg0.N) (p : Fin 10000) (k : Fin 32) :
    ((cfg0.win 0).blk t).view.emb (ix2 p k) = ix2 (node t p) k := by
  obtain ⟨e0, e1, -⟩ := idx_facts t
  funext a; apply Fin.ext
  match a with
  | ⟨0, _⟩ => show win0_0.index t (0 : Fin 2) * 10000 + 1 * p.val = t.val * 10000 + p.val; rw [e0]; omega
  | ⟨1, _⟩ => show win0_0.index t (1 : Fin 2) * 32 + 1 * k.val = k.val; rw [e1]; omega

theorem emb_sums (t : Fin cfg0.N) (p : Fin 10000) (k : Fin 32) :
    ((cfg0.win 1).blk t).view.emb (ix2 p k) = ix2 (node t p) k := by
  obtain ⟨-, -, e0, e1, -⟩ := idx_facts t
  funext a; apply Fin.ext
  match a with
  | ⟨0, _⟩ => show win0_1.index t (0 : Fin 2) * 10000 + 1 * p.val = t.val * 10000 + p.val; rw [e0]; omega
  | ⟨1, _⟩ => show win0_1.index t (1 : Fin 2) * 32 + 1 * k.val = k.val; rw [e1]; omega

theorem emb_counts (t : Fin cfg0.N) (p : Fin 10000) :
    ((cfg0.win 2).blk t).view.emb (ix2 p (0 : Fin 1)) = ix2 (node t p) (0 : Fin 1) := by
  obtain ⟨-, -, -, -, e0, e1, -⟩ := idx_facts t
  funext a; apply Fin.ext
  match a with
  | ⟨0, _⟩ => show win0_2.index t (0 : Fin 2) * 10000 + 1 * p.val = t.val * 10000 + p.val; rw [e0]; omega
  | ⟨1, _⟩ => show win0_2.index t (1 : Fin 2) * 1 + 1 * 0 = 0; rw [e1]

theorem emb_upper (t : Fin cfg0.N) (k q : Fin 32) :
    ((cfg0.win 3).blk t).view.emb (ix2 k q) = ix2 k q := by
  obtain ⟨-, -, -, -, -, -, e0, e1, -⟩ := idx_facts t
  funext a; apply Fin.ext
  match a with
  | ⟨0, _⟩ => show win0_3.index t (0 : Fin 2) * 32 + 1 * k.val = k.val; rw [e0]; omega
  | ⟨1, _⟩ => show win0_3.index t (1 : Fin 2) * 32 + 1 * q.val = q.val; rw [e1]; omega

theorem emb_lower (t : Fin cfg0.N) (k q : Fin 32) :
    ((cfg0.win 4).blk t).view.emb (ix2 k q) = ix2 k q := by
  obtain ⟨-, -, -, -, -, -, -, -, e0, e1, -⟩ := idx_facts t
  funext a; apply Fin.ext
  match a with
  | ⟨0, _⟩ => show win0_4.index t (0 : Fin 2) * 32 + 1 * k.val = k.val; rw [e0]; omega
  | ⟨1, _⟩ => show win0_4.index t (1 : Fin 2) * 32 + 1 * q.val = q.val; rw [e1]; omega

theorem emb_bias (t : Fin cfg0.N) (q : Fin 32) :
    ((cfg0.win 5).blk t).view.emb (ix2 (0 : Fin 1) q) = ix2 (0 : Fin 1) q := by
  obtain ⟨-, -, -, -, -, -, -, -, -, -, e0, e1, -⟩ := idx_facts t
  funext a; apply Fin.ext
  match a with
  | ⟨0, _⟩ => show win0_5.index t (0 : Fin 2) * 1 + 1 * 0 = 0; rw [e0]
  | ⟨1, _⟩ => show win0_5.index t (1 : Fin 2) * 32 + 1 * q.val = q.val; rw [e1]; omega

theorem emb_out (t : Fin cfg0.N) (p : Fin 10000) (q : Fin 32) :
    ((cfg0.win 6).blk t).view.emb (ix2 p q) = ix2 (node t p) q := by
  obtain ⟨-, -, -, -, -, -, -, -, -, -, -, -, e0, e1⟩ := idx_facts t
  funext a; apply Fin.ext
  match a with
  | ⟨0, _⟩ => show win0_6.index t (0 : Fin 2) * 10000 + 1 * p.val = t.val * 10000 + p.val; rw [e0]; omega
  | ⟨1, _⟩ => show win0_6.index t (1 : Fin 2) * 32 + 1 * q.val = q.val; rw [e1]; omega

end Cert.GraphConv.Kernel

end
-- ==== Proof.BlockReads.lean ====
/-
  Each window's block at point `t`, read at an index, is the argument or prepared array at the matching index: the
  features, sums and counts at node `10000·t + p`; the upper weight half at row `k` and the lower at row `32 + k` of the
  weight matrix; the bias row at its column.
-/
import proofs.«167307_j20444044329486_1_alg».proof.Proof.HostArrays
import proofs.«167307_j20444044329486_1_alg».proof.Proof.Blocks
import proofs.«167307_j20444044329486_1_alg».proof.Proof.Spec
import Idealize.ShloMosaic.Lib.Pipeline.Value
import Idealize.ShloMosaic.Lib.ValueIdx

noncomputable section

namespace Cert.GraphConv.Kernel

open Cert.KernelIdeal Cert.KernelIdeal.Gen Idealize.ShloMosaic Idealize.ShloMosaic.TcCoe Idealize.SL.Sem
open Idealize.ShloMosaic.StableHlo Idealize.ShloMosaic.ValueIdx Cert.GraphConv
open Idealize.ShloMosaic.Pipeline (Dat)

variable (m : (ℓ : Loc nD τ sig) → Buf (Elt Ideal) ℓ) (ρ : Dev nD → PrngReg)

/-! ## Each window's block read at an index -/

theorem feat_at (c : Dev nD) (t : Fin cfg0.N) (p : Fin 10000) (k : Fin 32) :
    iblk m c 0 t (ix2 p k) = (m ((c : Thread nD τ).loc main_arg0)) (ix2 (node t p) k) := by
  show V m c main_arg0 (((cfg0.win 0).blk t).view.emb (ix2 p k)) = _
  rw [emb_feat, V_main_arg0]

/-- A block of the sums' window read at `(p, k)` reads the array at node `10000·t + p`, whatever the array holds. -/
theorem read_sums_blk (X : S100000x32.Idx → EReal) (t : Fin cfg0.N) (p : Fin 10000) (k : Fin 32) :
    ((cfg0.win 1).blk t).view.read (Elt Ideal) X (ix2 p k) = X (ix2 (node t p) k) := by
  show X (((cfg0.win 1).blk t).view.emb (ix2 p k)) = _
  rw [emb_sums]

/-- A block of the counts' window read at `(p, 0)` reads the column at node `10000·t + p`, whatever the column holds. -/
theorem read_counts_blk (X : S100000x1.Idx → EReal) (t : Fin cfg0.N) (p : Fin 10000) :
    ((cfg0.win 2).blk t).view.read (Elt Ideal) X (ix2 p (0 : Fin 1)) = X (ix2 (node t p) (0 : Fin 1)) := by
  show X (((cfg0.win 2).blk t).view.emb (ix2 p (0 : Fin 1))) = _
  rw [emb_counts]

/-- The array the sums' window stages is the gathered sums. -/
theorem sums_win (c : Dev nD) :
    V m c (Pipeline.arrRef spec0 1) = gatheredSums (m ((c : Thread nD τ).loc main_arg0)) (m ((c : Thread nD τ).loc main_arg3)) (m ((c : Thread nD τ).loc main_arg4)) := sums_arr m c

/-- The array the counts' window stages is the edge counts as a column. -/
theorem counts_win (c : Dev nD) :
    V m c (Pipeline.arrRef spec0 2) = shapeCast S100000x1 (edgeCounts (m ((c : Thread nD τ).loc main_arg4))) shapeCasts_S100000_S100000x1 := counts_arr m c

theorem sums_at (c : Dev nD) (t : Fin cfg0.N) (p : Fin 10000) (k : Fin 32) :
    iblk m c 1 t (ix2 p k) = gatheredSums (m ((c : Thread nD τ).loc main_arg0)) (m ((c : Thread nD τ).loc main_arg3)) (m ((c : Thread nD τ).loc main_arg4)) (ix2 (node t p) k) := by
  have h : iblk m c 1 t = ((cfg0.win 1).blk t).view.read (Elt Ideal) (V m c (Pipeline.arrRef spec0 1)) := rfl
  rw [h, sums_win]
  exact read_sums_blk (gatheredSums (m ((c : Thread nD τ).loc main_arg0)) (m ((c : Thread nD τ).loc main_arg3)) (m ((c : Thread nD τ).loc main_arg4))) t p k

theorem counts_at (c : Dev nD) (t : Fin cfg0.N) (p : Fin 10000) :
    iblk m c 2 t (ix2 p (0 : Fin 1)) = edgeCounts (m ((c : Thread nD τ).loc main_arg4)) (ix1 (node t p)) := by
  have h : iblk m c 2 t = ((cfg0.win 2).blk t).view.read (Elt Ideal) (V m c (Pipeline.arrRef spec0 2)) := rfl
  rw [h, counts_win]
  refine (read_counts_blk (shapeCast S100000x1 (edgeCounts (m ((c : Thread nD τ).loc main_arg4))) shapeCasts_S100000_S100000x1) t p).trans ?_
  refine shapeCast_apply _ shapeCasts_S100000_S100000x1 _ (ix1 (node t p)) ?_
  rw [Shape.rowMajor_val_one, Shape.rowMajor_val_two]
  show (node t p).val = (node t p).val * 1 + 0
  omega

theorem upper_at (c : Dev nD) (t : Fin cfg0.N) (k q : Fin 32) :
    iblk m c 3 t (ix2 k q) = (m ((c : Thread nD τ).loc main_arg1)) (ix2 (upper k) q) := by
  show (V m c main_v15 : S32x32.Idx → EReal) (((cfg0.win 3).blk t).view.emb (ix2 k q)) = _
  rw [emb_upper, upper_arr]
  exact extractStridedSlice_apply ![0, 0] _ slices_S64x32_S32x32_0_0 (ix2 k q) (ix2 (upper k) q) (fun a => match a with
    | ⟨0, _⟩ => by show k.val = 0 + k.val; omega
    | ⟨1, _⟩ => by show q.val = 0 + q.val; omega)

theorem lower_at (c : Dev nD) (t : Fin cfg0.N) (k q : Fin 32) :
    iblk m c 4 t (ix2 k q) = (m ((c : Thread nD τ).loc main_arg1)) (ix2 (lower k) q) := by
  show (V m c main_v16 : S32x32.Idx → EReal) (((cfg0.win 4).blk t).view.emb (ix2 k q)) = _
  rw [emb_lower, lower_arr]
  exact extractStridedSlice_apply ![32, 0] _ slices_S64x32_S32x32_32_0 (ix2 k q) (ix2 (lower k) q) (fun a => match a with
    | ⟨0, _⟩ => by show 32 + k.val = 32 + k.val; rfl
    | ⟨1, _⟩ => by show q.val = 0 + q.val; omega)

theorem bias_at (c : Dev nD) (t : Fin cfg0.N) (q : Fin 32) :
    iblk m c 5 t (ix2 (0 : Fin 1) q) = (m ((c : Thread nD τ).loc main_arg2)) (ix1 q) := by
  show (V m c main_v17 : S1x32.Idx → EReal) (((cfg0.win 5).blk t).view.emb (ix2 (0 : Fin 1) q)) = _
  rw [emb_bias, bias_arr]
  refine shapeCast_apply _ shapeCasts_S32_S1x32 _ (ix1 q) ?_
  rw [Shape.rowMajor_val_one, Shape.rowMajor_val_two]
  show q.val = 0 * 32 + q.val
  omega

end Cert.GraphConv.Kernel

end
-- ==== Proof.Body.lean ====
/-
  What the kernel body computes on one block of 10000 nodes, index by index over the extended reals.

  The body loads the block's counts `c : [10000, 1]`, gathered sums `s : [10000, 32]` and features `xb : [10000, 32]`,
  the two halves `w1, w2 : [32, 32]` of the weight matrix and the bias row `bb : [1, 32]`, and stores

      max ( xb · w1  +  (s / max(c, 1)) · w2  +  bb ,  0 ),

  the count broadcast along the features, the bias along the nodes, each product a matrix-unit pass into a zero
  accumulator. Over the extended reals a change of float format is the identity and such a pass, read at `(p, q)`, is the
  sum over the 32 contracted positions `k` of left `(p, k)` times right `(k, q)`.
-/
import proofs.«167307_j20444044329486_1_alg».proof.Proof.Gen.KernelIdeal.Skeleton
import proofs.«167307_j20444044329486_1_alg».proof.Proof.Spec
import Idealize.ShloMosaic.Lib.ValueIdx
import Idealize.ShloMosaic.Lib.Pipeline.Value
import Idealize.ShloMosaic.PureOps.Ideal.Laws

noncomputable section

namespace Cert.GraphConv.Body

open Cert.KernelIdeal Cert.KernelIdeal.Gen Idealize.ShloMosaic Idealize.ShloMosaic.ValueIdx Cert.GraphConv

/-! ## The [10000, 32] × [32, 32] product read at an index -/

theorem lhs_axis0 (i : S10000x32.Idx) (q : dot_S10000x32_S32x32_S10000x32_1_0_0_1_n_n.contr.Idx) :
    (dot_S10000x32_S32x32_S10000x32_1_0_0_1_n_n.lhsIdx i q 0).val = (i 0).val := by
  unfold DotDims.lhsIdx
  rw [dif_neg (show ¬(0 : Fin S10000x32.rank) ∈ dot_S10000x32_S32x32_S10000x32_1_0_0_1_n_n.lhsBatch by decide), dif_pos (show (0 : Fin S10000x32.rank) ∈ dot_S10000x32_S32x32_S10000x32_1_0_0_1_n_n.lhsNonContracting by decide)]
  rfl
theorem lhs_axis1 (i : S10000x32.Idx) (q : dot_S10000x32_S32x32_S10000x32_1_0_0_1_n_n.contr.Idx) :
    (dot_S10000x32_S32x32_S10000x32_1_0_0_1_n_n.lhsIdx i q 1).val = (q ⟨0, by decide⟩).val :=
  dot_S10000x32_S32x32_S10000x32_1_0_0_1_n_n.lhsIdx_val_of_single rfl i q
theorem rhs_axis0 (i : S10000x32.Idx) (q : dot_S10000x32_S32x32_S10000x32_1_0_0_1_n_n.contr.Idx) :
    (dot_S10000x32_S32x32_S10000x32_1_0_0_1_n_n.rhsIdx i q 0).val = (q ⟨0, by decide⟩).val :=
  dot_S10000x32_S32x32_S10000x32_1_0_0_1_n_n.rhsIdx_val_of_single rfl i q
theorem rhs_axis1 (i : S10000x32.Idx) (q : dot_S10000x32_S32x32_S10000x32_1_0_0_1_n_n.contr.Idx) :
    (dot_S10000x32_S32x32_S10000x32_1_0_0_1_n_n.rhsIdx i q 1).val = (i 1).val := by
  unfold DotDims.rhsIdx
  rw [dif_neg (show ¬(1 : Fin S32x32.rank) ∈ dot_S10000x32_S32x32_S10000x32_1_0_0_1_n_n.rhsBatch by decide), dif_pos (show (1 : Fin S32x32.rank) ∈ dot_S10000x32_S32x32_S10000x32_1_0_0_1_n_n.rhsNonContracting by decide)]
  rfl

/-- A matrix-unit pass into the zero accumulator, at `(p, q)`: the sum over `k` of left `(p, k)` times right `(k, q)`. -/
theorem product_at {φ₁ φ₂ : FTy} (l : FVec Ideal S10000x32 φ₁) (r : FVec Ideal S32x32 φ₂) (p : Fin 10000) (q : Fin 32) :
    matmul dot_S10000x32_S32x32_S10000x32_1_0_0_1_n_n none l r (constant S10000x32 .f32 0x00000000#32) (ix2 p q)
      = ∑ k : Fin 32, l (ix2 p k) * r (ix2 k q) := by
  simp only [matmul]
  rw [Ideal.matmul_constant_zero_apply, ← Equiv.sum_comp (contrEquiv1 dot_S10000x32_S32x32_S10000x32_1_0_0_1_n_n 32 rfl rfl).symm]
  refine Finset.sum_congr rfl fun k _ => ?_
  have hk := contrEquiv1_symm_val dot_S10000x32_S32x32_S10000x32_1_0_0_1_n_n 32 rfl rfl k
  have el : dot_S10000x32_S32x32_S10000x32_1_0_0_1_n_n.lhsIdx (ix2 p q) ((contrEquiv1 dot_S10000x32_S32x32_S10000x32_1_0_0_1_n_n 32 rfl rfl).symm k) = ix2 p k := funext fun a => Fin.ext (by
    match a with
    | ⟨0, _⟩ => exact lhs_axis0 _ _
    | ⟨1, _⟩ => exact (lhs_axis1 _ _).trans hk)
  have er : dot_S10000x32_S32x32_S10000x32_1_0_0_1_n_n.rhsIdx (ix2 p q) ((contrEquiv1 dot_S10000x32_S32x32_S10000x32_1_0_0_1_n_n 32 rfl rfl).symm k) = ix2 k q := funext fun a => Fin.ext (by
    match a with
    | ⟨0, _⟩ => exact (rhs_axis0 _ _).trans hk
    | ⟨1, _⟩ => exact rhs_axis1 _ _)
  rw [el, er]

/-! ## The stored value at an index of the block -/

/-- The count column broadcast along the features, read at `(p, k)`, is the count at `(p, 0)`. -/
theorem count_row (v : FVec Ideal S10000x1 .f32) (p : Fin 10000) (k : Fin 32) :
    broadcastTo S10000x32 v broadcasts_S10000x1_S10000x32 (ix2 p k) = v (ix2 p 0) :=
  broadcastTo_apply v broadcasts_S10000x1_S10000x32 (ix2 p k) (ix2 p 0) (fun a => match a with
    | ⟨0, _⟩ => by show p.val = if (10000 : Nat) = 1 then 0 else p.val; rw [if_neg (by decide)]
    | ⟨1, _⟩ => by show 0 = if (1 : Nat) = 1 then 0 else k.val; rw [if_pos rfl])

/-- The bias row broadcast along the nodes, read at `(p, q)`, is the bias at `(0, q)`. -/
theorem bias_col (v : FVec Ideal S1x32 .f32) (p : Fin 10000) (q : Fin 32) :
    broadcastTo S10000x32 v broadcasts_S1x32_S10000x32 (ix2 p q) = v (ix2 0 q) :=
  broadcastTo_apply v broadcasts_S1x32_S10000x32 (ix2 p q) (ix2 0 q) (fun a => match a with
    | ⟨0, _⟩ => by show 0 = if (1 : Nat) = 1 then 0 else p.val; rw [if_pos rfl]
    | ⟨1, _⟩ => by show q.val = if (32 : Nat) = 1 then 0 else q.val; rw [if_neg (by decide)])

/-- The value the body stores, at `(p, q)` of the block. -/
theorem stored_at (c : Vec Ideal S10000x1 .f32) (s xb : Vec Ideal S10000x32 .f32) (w1 w2 : Vec Ideal S32x32 .f32)
    (bb : Vec Ideal S1x32 .f32) (p : Fin 10000) (q : Fin 32) :
    k0_pay1 (F := Ideal) c s xb w1 w2 bb (ix2 p q)
      = max ((∑ k : Fin 32, xb (ix2 p k) * w1 (ix2 k q)
              + ∑ k : Fin 32, Ideal.div (s (ix2 p k)) (max (c (ix2 p 0)) one) * w2 (ix2 k q))
             + bb (ix2 0 q)) zero := by
  unfold k0_pay1
  simp only [shapeCast_self]
  rw [maximumf_apply, addf_apply, addf_apply, product_at, product_at, bias_col, broadcast_apply]
  simp only [truncf_apply, divf_apply, count_row, maximumf_apply, broadcast_apply]
  rfl

end Cert.GraphConv.Body

end
-- ==== Proof.KernelArray.lean ====
/-
  The kernel's output array after the run is the layer of the arguments.

  The kernel walks the 100000 nodes in ten blocks of 10000: at point `t` it sees rows `10000·t … 10000·t + 9999` of the
  features, of the gathered sums and of the edge counts, the two weight halves and the bias whole, and writes rows
  `10000·t …` of the output. What the body stores at row `p` of the block is the layer at node `10000·t + p`, so what point
  `t` writes back is block `t` of the layer; and the ten blocks cover the array, node `r` lying in block `r / 10000`. Hence
  the array ends holding the layer, and the program's run ends with it in its result and the arguments unchanged.
-/
import proofs.«167307_j20444044329486_1_alg».proof.Proof.Gen.KernelIdeal.Value
import proofs.«167307_j20444044329486_1_alg».proof.Proof.BlockReads
import proofs.«167307_j20444044329486_1_alg».proof.Proof.Body
import proofs.«167307_j20444044329486_1_alg».proof.Proof.Spec
import Idealize.ShloMosaic.Lib.Pipeline.Value
import Idealize.ShloMosaic.Lib.ValueIdx

noncomputable section

namespace Cert.GraphConv.Kernel

open Cert.KernelIdeal Cert.KernelIdeal.Gen Idealize.ShloMosaic Idealize.ShloMosaic.TcCoe Idealize.SL.Sem
open Idealize.ShloMosaic.StableHlo Idealize.ShloMosaic.ValueIdx Cert.GraphConv
open Idealize.ShloMosaic.Pipeline (Dat)

variable (m : (ℓ : Loc nD τ sig) → Buf (Elt Ideal) ℓ) (ρ : Dev nD → PrngReg)

/-- The whole output array: the layer of the arguments, of the gathered sums and of the edge counts. -/
def result (c : Dev nD) : (⟨S100000x32, .f32⟩ : BufTy).Contents (Elt Ideal) :=
  layer (m ((c : Thread nD τ).loc main_arg0)) (gatheredSums (m ((c : Thread nD τ).loc main_arg0)) (m ((c : Thread nD τ).loc main_arg3)) (m ((c : Thread nD τ).loc main_arg4))) (edgeCounts (m ((c : Thread nD τ).loc main_arg4))) (m ((c : Thread nD τ).loc main_arg1)) (m ((c : Thread nD τ).loc main_arg2))

/-! ## What a point writes back, the cover, the array, the run -/

theorem origin : (![0, 0] : Fin 2 → Nat) = fun _ => 0 := funext fun a => by fin_cases a <;> rfl

/-- What point `t` writes back is block `t` of any array `R` that holds, at node `10000·t + p`, what the body stores
    at row `p` of the block. -/
theorem flushed_of (c : Dev nD) (t : Fin cfg0.N) (R : S100000x32.Idx → EReal)
    (hR : ∀ (p : Fin 10000) (q : Fin 32), k0_pay1 (F := Ideal) (iblk m c 2 t) (iblk m c 1 t) (iblk m c 0 t) (iblk m c 3 t) (iblk m c 4 t) (iblk m c 5 t) (ix2 p q) = R (ix2 (node t p) q)) :
    (dats m 0 c).flushed 6 t = ((cfg0.win 6).blk t).view.read (Elt Ideal) R := by
  rw [Value.flushed6]
  unfold out0_6
  rw [View.canon_unit_zero origin]
  simp only [View.ld_unit_zero (S := S10000x32) origin, View.ld_unit_zero (S := S10000x1) origin,
    View.ld_unit_zero (S := S32x32) origin, View.ld_unit_zero (S := S1x32) origin]
  funext y
  obtain ⟨p, q, rfl⟩ : ∃ (p : Fin 10000) (q : Fin 32), y = ix2 p q := ⟨y 0, y 1, eq_ix2 y⟩
  show k0_pay1 (F := Ideal) (iblk m c 2 t) (iblk m c 1 t) (iblk m c 0 t) (iblk m c 3 t) (iblk m c 4 t) (iblk m c 5 t) (ix2 p q) = R (((cfg0.win 6).blk t).view.emb (ix2 p q))
  rw [emb_out]
  exact hR p q

/-- Row `p` of block `t`: the body stores the layer at node `10000·t + p`. -/
theorem stored_layer (c : Dev nD) (t : Fin cfg0.N) (p : Fin 10000) (q : Fin 32) :
    k0_pay1 (F := Ideal) (iblk m c 2 t) (iblk m c 1 t) (iblk m c 0 t) (iblk m c 3 t) (iblk m c 4 t) (iblk m c 5 t) (ix2 p q) = result m c (ix2 (node t p) q) := by
  refine (Body.stored_at (iblk m c 2 t) (iblk m c 1 t) (iblk m c 0 t) (iblk m c 3 t) (iblk m c 4 t) (iblk m c 5 t) p q).trans ?_
  simp only [feat_at, sums_at, counts_at, upper_at, lower_at, bias_at]
  unfold result layer neighMean
  rfl

/-- What point `t` writes back is block `t` of the layer. -/
theorem flushed_eq (c : Dev nD) (t : Fin cfg0.N) :
    (dats m 0 c).flushed 6 t = ((cfg0.win 6).blk t).view.read (Elt Ideal) (result m c) :=
  flushed_of m c t (result m c) (stored_layer m c t)

/-- An index is in point `t`'s block iff each coordinate is in the block's range on its axis. -/
theorem mem_blk (t : Fin cfg0.N) (i : S100000x32.Idx) :
    i ∈ ((cfg0.win 6).blk t).view.set ↔ ∀ a : Fin 2, win0_6.index t a * S10000x32.size a ≤ (i a).val ∧ (i a).val < win0_6.index t a * S10000x32.size a + S10000x32.size a := by
  show i ∈ ((View.whole main_v18).slice (win0_6.rect t)).set ↔ _
  rw [View.set_slice_whole, Rect.mem_set_unit]
  exact Iff.rfl

/-- Node `r` lies in block `r / 10000`. -/
theorem cover (i : S100000x32.Idx) :
    ∃ t : Fin cfg0.N, (cfg0.win 6).flush t = true ∧ i ∈ ((cfg0.win 6).blk t).view.set := by
  have hi0 : (i 0).val < 100000 := (i 0).isLt
  have hi1 : (i 1).val < 32 := (i 1).isLt
  have hN : cfg0.N = 10 := N_0
  have ht : (i 0).val / 10000 < cfg0.N := by rw [hN]; omega
  obtain ⟨-, -, -, -, -, -, -, -, -, -, -, -, e0, e1⟩ := idx_facts ⟨(i 0).val / 10000, ht⟩
  refine ⟨⟨(i 0).val / 10000, ht⟩, flush0_6 _, ?_⟩
  rw [mem_blk]
  intro a
  match a with
  | ⟨0, _⟩ =>
    show win0_6.index ⟨(i 0).val / 10000, ht⟩ (0 : Fin 2) * 10000 ≤ (i 0).val ∧ (i 0).val < win0_6.index ⟨(i 0).val / 10000, ht⟩ (0 : Fin 2) * 10000 + 10000
    rw [e0]
    show (i 0).val / 10000 * 10000 ≤ (i 0).val ∧ (i 0).val < (i 0).val / 10000 * 10000 + 10000
    omega
  | ⟨1, _⟩ =>
    show win0_6.index ⟨(i 0).val / 10000, ht⟩ (1 : Fin 2) * 32 ≤ (i 1).val ∧ (i 1).val < win0_6.index ⟨(i 0).val / 10000, ht⟩ (1 : Fin 2) * 32 + 32
    rw [e1]
    omega

/-- The output array after the run is the layer. -/
theorem final (c : Dev nD) : (dats m 0 c).arrAt 6 cfg0.N = result m c :=
  (dats m 0 c).arrAt_eq_of_cover 6 (result m c) (fun t _ => flushed_eq m c t) cover

/-- Every weakly fair execution of the idealized kernel program terminates with the output at the layer and the
    arguments unchanged. -/
theorem run : θ_run defs (onTc (τ := τ) (main (F := Ideal))) ⟨m, fun _ => 0, ρ⟩ fun r => ∀ c : Dev nD,
      r.2.mem ((c : Thread nD τ).loc main_v18) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.GraphConv.Kernel

end
-- ==== Proof.lean ====
/-
  One graph-convolution layer over 100000 nodes and 1600000 edges: a kernel against its plain reference, equal over the
  extended reals.

  Both programs first gather each edge's source features and add them up at the edge's destination (the sums `S`), and
  count each node's incoming edges (the counts `C`) — the same operations in the same order on the same arguments, so
  `S` and `C` are one function of the arguments on both sides. The reference then forms the neighbourhood mean
  `S / max(C, 1)`, joins the features `x` and the mean side by side, contracts the 64 joined columns against the weight
  matrix `W`, adds the bias and clamps at zero. The kernel walks the nodes in ten blocks of 10000 and computes, per block,
  `max (x · W[0:32] + (S / max(C, 1)) · W[32:64] + b, 0)`: two contractions over 32 columns each, against the upper and
  the lower half of `W`.

  Over the extended reals every change of float format is the identity and a matrix product is the plain sum of
  products, so at node `r` and output feature `j` the reference's value is a sum over 64 terms and the kernel's the sum of
  two sums over 32 terms, the first 32 and the last 32 of the same 64. Splitting a finite sum in two needs only that
  addition is commutative and associative, which holds on the extended reals with their infinities; the finiteness of
  the inputs is not used.

  Spec.lean states the layer index by index and proves the split; RefLayer.lean reads the reference's stages down to the
  layer; Body.lean reads what the kernel stores at an index of a block; KernelArray.lean reads the arrays the program
  prepares for the kernel, places each block in its array, and concludes that the output array is the layer. Here the
  two sides are set beside each other: the sums and the counts agree term for term, hence so do the results.
  The idealization rewrote nothing, so the kernel and its idealization are one text and that claim is trivial.
-/
import proofs.«167307_j20444044329486_1_alg».proof.Defs
import proofs.«167307_j20444044329486_1_alg».proof.Proof.Gen.Kernel
import proofs.«167307_j20444044329486_1_alg».proof.Proof.Gen.Kernel.Skeleton
import proofs.«167307_j20444044329486_1_alg».proof.Proof.Gen.Kernel.Launch
import proofs.«167307_j20444044329486_1_alg».proof.Proof.Gen.Kernel.Points
import proofs.«167307_j20444044329486_1_alg».proof.Proof.Gen.Kernel.Frame
import proofs.«167307_j20444044329486_1_alg».proof.Proof.Gen.KernelIdeal
import proofs.«167307_j20444044329486_1_alg».proof.Proof.Gen.KernelIdeal.Skeleton
import proofs.«167307_j20444044329486_1_alg».proof.Proof.Gen.KernelIdeal.Launch
import proofs.«167307_j20444044329486_1_alg».proof.Proof.Gen.KernelIdeal.Points
import proofs.«167307_j20444044329486_1_alg».proof.Proof.Gen.KernelIdeal.Frame
import proofs.«167307_j20444044329486_1_alg».proof.Proof.Gen.ReferenceIdeal
import proofs.«167307_j20444044329486_1_alg».proof.Proof.Gen.Pre_finite_inputs
import proofs.«167307_j20444044329486_1_alg».proof.Proof.Gen.KernelIdeal.Value
import proofs.«167307_j20444044329486_1_alg».proof.Proof.Gen.ReferenceIdeal.Run
import proofs.«167307_j20444044329486_1_alg».proof.Proof.Gen.ReferenceIdeal.Read
import proofs.«167307_j20444044329486_1_alg».proof.Proof.RefLayer
import proofs.«167307_j20444044329486_1_alg».proof.Proof.KernelArray
import Idealize.ShloMosaic.Adequacy
import Idealize.ShloMosaic.Init

noncomputable section

namespace Cert.Proof

open Idealize.ShloMosaic Idealize.SL.Sem

/-- The gathered sums are one function of the arguments in both programs: the reference's scatter stage is the
    kernel program's, operation for operation. -/
theorem sums_same (x0 : (⟨Cert.ReferenceIdeal.S100000x32, .f32⟩ : BufTy).Contents (Elt Ideal))
    (x3 x4 : (⟨Cert.ReferenceIdeal.S1600000, .i32⟩ : BufTy).Contents (Elt Ideal)) :
    Cert.ReferenceIdeal.Read.val_main_v9 (F := Ideal) x0 x3 x4 = Cert.GraphConv.Kernel.gatheredSums x0 x3 x4 := rfl

/-- So are the edge counts. -/
theorem counts_same (x4 : (⟨Cert.ReferenceIdeal.S1600000, .i32⟩ : BufTy).Contents (Elt Ideal)) :
    Cert.ReferenceIdeal.Read.val_main_v13 (F := Ideal) x4 = Cert.GraphConv.Kernel.edgeCounts x4 := rfl

theorem frame_kernel : Cert.frame_Kernel := fun m ρ _ => Cert.Kernel.Gen.frame m ρ

theorem frame_ideal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs end with the layer of the arguments in their result array. -/
theorem algebraic : Cert.algebraic_KernelIdeal_ReferenceIdeal := by
  intro m ρ m' ρ' _ hagree
  refine ⟨fun c => Cert.GraphConv.Kernel.result m c, Cert.GraphConv.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.GraphConv.Ref.result_eq, sums_same, counts_same,
    (hagree c).1, (hagree c).2.1, (hagree c).2.2.1, (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
